-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S50000x64 : Shape := ⟨2, ![50000, 64]⟩
abbrev S1600000x32 : Shape := ⟨2, ![1600000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x1600000 32) (main_arg1 : FVec F S50000x64 .f32) (main_arg2 : FVec F S1600000x32 .f32) (main_arg3 : FVec F S128x160 .f32) (main_arg4 : FVec F S128 .f32) (main_arg5 : FVec F S64x128 .f32) (main_arg6 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x160 .f32 := Host.absf main_arg3
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x1600000 : Shape := ⟨2, ![2, 1600000]⟩
abbrev S50000x64 : Shape := ⟨2, ![50000, 64]⟩
abbrev S1600000x32 : Shape := ⟨2, ![1600000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S128x32 : Shape := ⟨2, ![128, 32]⟩
abbrev S32x128 : Shape := ⟨2, ![32, 128]⟩
abbrev S128x64 : Shape := ⟨2, ![128, 64]⟩
abbrev S1x128 : Shape := ⟨2, ![1, 128]⟩
abbrev S1x64 : Shape := ⟨2, ![1, 64]⟩
abbrev S8000x32 : Shape := ⟨2, ![8000, 32]⟩
abbrev S8000x64 : Shape := ⟨2, ![8000, 64]⟩
abbrev S8000x128 : Shape := ⟨2, ![8000, 128]⟩

abbrev nBuf : Space → Nat
  | .hbm => 46
  | .vmem => 14
  | .smem => 0
  | _ => 0

abbrev bufTy : (tb : Table) → Fin (tcTables nBuf tb) → BufTy
  | .hbm, ⟨0, _⟩ => ⟨S2x1600000, .i32⟩
  | .hbm, ⟨1, _⟩ => ⟨S50000x64, .f32⟩
  | .hbm, ⟨2, _⟩ => ⟨S1600000x32, .f32⟩
  | .hbm, ⟨3, _⟩ => ⟨S128x160, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x32, .bf16⟩
  | .hbm, ⟨30, _⟩ => ⟨S1600000x64, .bf16⟩
  | .hbm, ⟨31, _⟩ => ⟨S1600000x64, .bf16⟩
  | .hbm, ⟨32, _⟩ => ⟨S128x32, .f32⟩
  | .hbm, ⟨33, _⟩ => ⟨S32x128, .f32⟩
  | .hbm, ⟨34, _⟩ => ⟨S32x128, .bf16⟩
  | .hbm, ⟨35, _⟩ => ⟨S128x64, .f32⟩
  | .hbm, ⟨36, _⟩ => ⟨S64x128, .f32⟩
  | .hbm, ⟨37, _⟩ => ⟨S64x128, .bf16⟩
  | .hbm, ⟨38, _⟩ => ⟨S128x64, .f32⟩
  | .hbm, ⟨39, _⟩ => ⟨S64x128, .f32⟩
  | .hbm, ⟨40, _⟩ => ⟨S64x128, .bf16⟩
  | .hbm, ⟨41, _⟩ => ⟨S1x128, .f32⟩
  | .hbm, ⟨42, _⟩ => ⟨S128x64, .f32⟩
  | .hbm, ⟨43, _⟩ => ⟨S128x64, .bf16⟩
  | .hbm, ⟨44, _⟩ => ⟨S1x64, .f32⟩
  | .hbm, ⟨45, _⟩ => ⟨S1600000x64, .f32⟩
  | .local _ .vmem, ⟨0, _⟩ => ⟨S8000x32, .bf16⟩
  | .local _ .vmem, ⟨1, _⟩ => ⟨S8000x32, .bf16⟩
  | .local _ .vmem, ⟨2, _⟩ => ⟨S8000x64, .bf16⟩
  | .local _ .vmem, ⟨3, _⟩ => ⟨S8000x64, .bf16⟩
  | .local _ .vmem, ⟨4, _⟩ => ⟨S8000x64, .bf16⟩
  | .local _ .vmem, ⟨5, _⟩ => ⟨S8000x64, .bf16⟩
  | .local _ .vmem, ⟨6, _⟩ => ⟨S32x128, .bf16⟩
  | .local _ .vmem, ⟨7, _⟩ => ⟨S64x128, .bf16⟩
  | .local _ .vmem, ⟨8, _⟩ => ⟨S64x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_1 : Ref sig .tc := ⟨.hbm, 20, rfl⟩
abbrev main_call0_v11 : Ref sig .tc := ⟨.hbm, 21, rfl⟩
abbrev main_call0_v12 : Ref sig .tc := ⟨.hbm, 22, rfl⟩
abbrev main_call0_c_2 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bitsLt_bf16_f32 : FTy.bits .bf16 < FTy.bits .f32
  slices_S128x160_S128x32_0_0 : S128x160.Slices ![0, 0] S128x32
  transposes_S128x32_S32x128_1_0 : S128x32.Transposes [1, 0] S32x128
  slices_S128x160_S128x64_0_32 : S128x160.Slices ![0, 32] S128x64
  transposes_S128x64_S64x128_1_0 : S128x64.Transposes [1, 0] S64x128
  slices_S128x160_S128x64_0_96 : S128x160.Slices ![0, 96] S128x64
  shapeCasts_S128_S1x128 : S128.ShapeCasts S1x128
  transposes_S64x128_S128x64_1_0 : S64x128.Transposes [1, 0] S128x64
  shapeCasts_S64_S1x64 : S64.ShapeCasts S1x64
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  gather_S50000x64_S1600000x1_S1600000x64_1_0_n_n_0_1_164_wf : GatherDims.WF S50000x64 S1600000x1 S1600000x64 [1] [0] [] [0] [] 1 ![1, 64]
  dot_S8000x32_S32x128_S8000x128_1_0_0_1_n_n_wf : DotDims.WF S8000x32 S32x128 S8000x128 [1] [0] [0] [1] [] []
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .bf16 = 32 ∨ (Rect.block (s := S1600000x32) S8000x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .bf16 = 32 ∨ (Rect.block (s := S1600000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1600000x64.size a
  hwx0_2 : ∀ i : grid0.Coords, EltTy.bits .bf16 = 32 ∨ (Rect.block (s := S1600000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .bf16 = 32 ∨ (Rect.block (s := S32x128) S32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S1600000x64.size a
  hwx0_9 : ∀ i : grid0.Coords, EltTy.bits .f32 = 32 ∨ (Rect.block (s := S1600000x64) S8000x64.size (cc0_transform_9 i) (hinb0_9 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_call0_v18) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v26) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v29) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v32) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v33) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S50000x64 : Shape := ⟨2, ![50000, 64]⟩
abbrev S1600000x32 : Shape := ⟨2, ![1600000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S160x128 : Shape := ⟨2, ![160, 128]⟩
abbrev S1600000x128 : Shape := ⟨2, ![1600000, 128]⟩
abbrev S1x128 : Shape := ⟨2, ![1, 128]⟩
abbrev S128x64 : Shape := ⟨2, ![128, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S50000x64, .f32⟩
  | .hbm, ⟨2, _⟩ => ⟨S1600000x32, .f32⟩
  | .hbm, ⟨3, _⟩ => ⟨S128x160, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x160, .f32⟩
  | .hbm, ⟨30, _⟩ => ⟨S160x128, .f32⟩
  | .hbm, ⟨31, _⟩ => ⟨S1600000x128, .f32⟩
  | .hbm, ⟨32, _⟩ => ⟨S1x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S1600000x128, .f32⟩
  | .hbm, ⟨37, _⟩ => ⟨S1600000x128, .f32⟩
  | .hbm, ⟨38, _⟩ => ⟨S128x64, .f32⟩
  | .hbm, ⟨39, _⟩ => ⟨S1600000x64, .f32⟩
  | .hbm, ⟨40, _⟩ => ⟨S1x64, .f32⟩
  | .hbm, ⟨41, _⟩ => ⟨S1600000x64, .f32⟩
  | .hbm, ⟨42, _⟩ => ⟨S1600000x64, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  concatenates_S1600000x32_S1600000x64_S1600000x64_S1600000x160_d1 : Shape.Concatenates [S1600000x32, S1600000x64, S1600000x64] S1600000x160 1
  transposes_S128x160_S160x128_1_0 : S128x160.Transposes [1, 0] S160x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  transposes_S64x128_S128x64_1_0 : S64x128.Transposes [1, 0] S128x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  gather_S50000x64_S1600000x1_S1600000x64_1_0_n_n_0_1_164_wf : GatherDims.WF S50000x64 S1600000x1 S1600000x64 [1] [0] [] [0] [] 1 ![1, 64]
  dot_S1600000x160_S160x128_S1600000x128_1_0_0_1_n_n_wf : DotDims.WF S1600000x160 S160x128 S1600000x128 [1] [0] [0] [1] [] []
  dot_S1600000x128_S128x64_S1600000x64_1_0_0_1_n_n_wf : DotDims.WF S1600000x128 S128x64 S1600000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf

class Facts : Prop extends Facts₀ where

variable [Facts]
-- ==== Proof.Spec.lean ====
/-
  The edge network as one function of its arrays.

  For every edge `e` the network reads three rows — the edge's own 32 features, the 64 features of its source node and
  the 64 features of its target node — and applies two affine layers with a rectifier between them:

    hidden e h = max (Σ_{k<32} ef[e,k]·W1[h,k] + Σ_{k<64} src[e,k]·W1[h,32+k] + Σ_{k<64} tgt[e,k]·W1[h,96+k] + b1[h]) 0
    out e o    = Σ_{h<128} hidden e h · W2[o,h] + b2[o]

  The first layer's weight matrix has 160 columns; its three column bands (0..31, 32..95, 96..159) meet the three
  rows. Written over the concatenated row of 160 entries the first layer is ONE sum over 160 columns; a sum over
  `Fin 160` splits into the sums over the three bands (`sum_bands`) in any commutative monoid, so on the extended
  reals too, with no finiteness asked of anything.
-/
import Idealize.ShloMosaic.PureOps.Ideal.Laws
import Idealize.ShloMosaic.Lib.ValueIdx

noncomputable section

namespace Cert.EdgeMLP

open Idealize.ShloMosaic Idealize.ShloMosaic.ValueIdx

/-- Column `k` of the edge-feature band of the first layer's weights. -/
abbrev colE (k : Fin 32) : Fin 160 := ⟨k.val, by have := k.isLt; omega⟩
/-- Column `k` of the source-node band: 32 columns further on. -/
abbrev colS (k : Fin 64) : Fin 160 := ⟨32 + k.val, by have := k.isLt; omega⟩
/-- Column `k` of the target-node band: 96 columns further on. -/
abbrev colT (k : Fin 64) : Fin 160 := ⟨96 + k.val, by have := k.isLt; omega⟩

/-- A sum over the 160 columns is the sum over the three bands, in this grouping. -/
theorem sum_bands {M : Type*} [AddCommMonoid M] (f : Fin 160 → M) :
    ∑ k : Fin 160, f k = ((∑ k : Fin 32, f (colE k)) + ∑ k : Fin 64, f (colS k)) + ∑ k : Fin 64, f (colT k) := by
  have h1 : (∑ k : Fin 160, f k) = (∑ k : Fin 96, f (Fin.castAdd 64 k)) + ∑ k : Fin 64, f (Fin.natAdd 96 k) :=
    Fin.sum_univ_add (M := M) (a := 96) (b := 64) f
  have h2 : (∑ k : Fin 96, f (Fin.castAdd 64 k))
      = (∑ k : Fin 32, f (Fin.castAdd 64 (Fin.castAdd 64 k))) + ∑ k : Fin 64, f (Fin.castAdd 64 (Fin.natAdd 32 k)) :=
    Fin.sum_univ_add (M := M) (a := 32) (b := 64) (fun k => f (Fin.castAdd 64 k))
  rw [h1, h2]
  rfl

variable (ef : FVec Ideal ⟨2, ![1600000, 32]⟩ .f32) (src tgt : FVec Ideal ⟨2, ![1600000, 64]⟩ .f32)
  (W1 : FVec Ideal ⟨2, ![128, 160]⟩ .f32) (b1 : FVec Ideal ⟨1, ![128]⟩ .f32)
  (W2 : FVec Ideal ⟨2, ![64, 128]⟩ .f32) (b2 : FVec Ideal ⟨1, ![64]⟩ .f32)

/-- The rectified first layer at edge `e`, hidden unit `h`: the three bands' products summed, the bias added, the
    maximum with the zero word's value taken. -/
def hidden (e : Fin 1600000) (h : Fin 128) : EReal :=
  max ((((∑ k : Fin 32, ef (ix2 e k) * W1 (ix2 h (colE k))) + ∑ k : Fin 64, src (ix2 e k) * W1 (ix2 h (colS k)))
        + ∑ k : Fin 64, tgt (ix2 e k) * W1 (ix2 h (colT k))) + b1 (ix1 h))
    (Ideal.ofBits .f32 0x00000000#32)

/-- The second layer at edge `e`, output unit `o`. -/
def outAt (e : Fin 1600000) (o : Fin 64) : EReal :=
  (∑ h : Fin 128, hidden ef src tgt W1 b1 e h * W2 (ix2 o h)) + b2 (ix1 o)

/-- The whole result array. -/
def out : FVec Ideal ⟨2, ![1600000, 64]⟩ .f32 := fun i => outAt ef src tgt W1 b1 W2 b2 (i 0) (i 1)

end Cert.EdgeMLP

end
-- ==== Proof.Entry.lean ====
/-
  What the kernel's region finds in its nine input arrays.

  Before the call the program gathers the source and target rows of every edge out of the node table, changes the
  float format of the three row arrays, cuts the first layer's weights into their three column bands and transposes
  each, transposes the second layer's weights, and reshapes the two biases into one-row matrices. None of this
  computes anything at the ideal values: a change of format is the identity, the rest moves entries.
-/
import proofs.«127379_j14336600834812_1_alg».proof.Proof.Gen.KernelIdeal.Frame
import proofs.«127379_j14336600834812_1_alg».proof.Proof.Spec
import Idealize.ShloMosaic.Lib.StableHlo.Run
import Idealize.ShloMosaic.Lib.Pipeline.Value
import Idealize.ShloMosaic.Lib.ValueIdx

noncomputable section

namespace Cert.EdgeMLP.Entry

open Cert.KernelIdeal Cert.KernelIdeal.Gen
open Idealize.ShloMosaic Idealize.ShloMosaic.TcCoe Idealize.ShloMosaic.ValueIdx Idealize.ShloMosaic.StableHlo Idealize.SL.Sem
open Cert.EdgeMLP

variable (m : (ℓ : Loc nD τ sig) → Buf (Elt Ideal) ℓ)

/-- Row `r` of the edge index array as node numbers: a negative entry counted from the end of the node table. -/
def nodeIx0 (c : Dev nD) : IVec S1600000x1 32 :=
  broadcastInDim S1600000x1 ![0] bcast_S1600000_S1600000x1_0
    (select (cmpi .slt (shapeCast S1600000 (extractStridedSlice S1x1600000 ![0, 0] (m ((c : Thread nD τ).loc main_arg0)) slices_S2x1600000_S1x1600000_0_0) shapeCasts_S1x1600000_S1600000) (broadcastInDim S1600000 ![] bcast_S_S1600000 (constantI S_ 32 0#32)))
      (addi (shapeCast S1600000 (extractStridedSlice S1x1600000 ![0, 0] (m ((c : Thread nD τ).loc main_arg0)) slices_S2x1600000_S1x1600000_0_0) shapeCasts_S1x1600000_S1600000) (broadcastInDim S1600000 ![] bcast_S_S1600000 (constantI S_ 32 50000#32)))
      (shapeCast S1600000 (extractStridedSlice S1x1600000 ![0, 0] (m ((c : Thread nD τ).loc main_arg0)) slices_S2x1600000_S1x1600000_0_0) shapeCasts_S1x1600000_S1600000))

def nodeIx1 (c : Dev nD) : IVec S1600000x1 32 :=
  broadcastInDim S1600000x1 ![0] bcast_S1600000_S1600000x1_0
    (select (cmpi .slt (shapeCast S1600000 (extractStridedSlice S1x1600000 ![1, 0] (m ((c : Thread nD τ).loc main_arg0)) slices_S2x1600000_S1x1600000_1_0) shapeCasts_S1x1600000_S1600000) (broadcastInDim S1600000 ![] bcast_S_S1600000 (constantI S_ 32 0#32)))
      (addi (shapeCast S1600000 (extractStridedSlice S1x1600000 ![1, 0] (m ((c : Thread nD τ).loc main_arg0)) slices_S2x1600000_S1x1600000_1_0) shapeCasts_S1x1600000_S1600000) (broadcastInDim S1600000 ![] bcast_S_S1600000 (constantI S_ 32 50000#32)))
      (shapeCast S1600000 (extractStridedSlice S1x1600000 ![1, 0] (m ((c : Thread nD τ).loc main_arg0)) slices_S2x1600000_S1x1600000_1_0) shapeCasts_S1x1600000_S1600000))

/-- The source rows and the target rows: the node table's rows the two index rows pick. -/
def srcRows (c : Dev nD) : FVec Ideal S1600000x64 .f32 :=
  Host.gather gather_S50000x64_S1600000x1_S1600000x64_1_0_n_n_0_1_164 (m ((c : Thread nD τ).loc main_arg1)) (nodeIx0 m c)
def tgtRows (c : Dev nD) : FVec Ideal S1600000x64 .f32 :=
  Host.gather gather_S50000x64_S1600000x1_S1600000x64_1_0_n_n_0_1_164 (m ((c : Thread nD τ).loc main_arg1)) (nodeIx1 m c)

/-! ## The arrays, whole -/

theorem V_ef (c : Dev nD) : (V m c main_call0_v18 : S1600000x32.Idx → EReal)
    = truncf (F := Ideal) (s := S1600000x32) .bf16 (m ((c : Thread nD τ).loc main_arg2) : FVec Ideal S1600000x32 .f32) bitsLt_bf16_f32 := by
  dsimp only [Gen.V, Gen.hostOps0]; after_results; rfl

theorem V_src (c : Dev nD) : (V m c main_call0_v19 : S1600000x64.Idx → EReal)
    = truncf .bf16 (srcRows m c) bitsLt_bf16_f32 := by
  dsimp only [Gen.V, Gen.hostOps0]; after_results; rfl

theorem V_tgt (c : Dev nD) : (V m c main_call0_v20 : S1600000x64.Idx → EReal)
    = truncf .bf16 (tgtRows m c) bitsLt_bf16_f32 := by
  dsimp only [Gen.V, Gen.hostOps0]; after_results; rfl

theorem V_we (c : Dev nD) : (V m c main_call0_v23 : S32x128.Idx → EReal)
    = truncf (F := Ideal) (s := S32x128) .bf16 (transpose S32x128 [1, 0] (extractStridedSlice S128x32 ![0, 0] (m ((c : Thread nD τ).loc main_arg3) : FVec Ideal S128x160 .f32) slices_S128x160_S128x32_0_0) transposes_S128x32_S32x128_1_0) bitsLt_bf16_f32 := by
  dsimp only [Gen.V, Gen.hostOps0]; after_results; rfl

theorem V_ws (c : Dev nD) : (V m c main_call0_v26 : S64x128.Idx → EReal)
    = truncf (F := Ideal) (s := S64x128) .bf16 (transpose S64x128 [1, 0] (extractStridedSlice S128x64 ![0, 32] (m ((c : Thread nD τ).loc main_arg3) : FVec Ideal S128x160 .f32) slices_S128x160_S128x64_0_32) transposes_S128x64_S64x128_1_0) bitsLt_bf16_f32 := by
  dsimp only [Gen.V, Gen.hostOps0]; after_results; rfl

theorem V_wt (c : Dev nD) : (V m c main_call0_v29 : S64x128.Idx → EReal)
    = truncf (F := Ideal) (s := S64x128) .bf16 (transpose S64x128 [1, 0] (extractStridedSlice S128x64 ![0, 96] (m ((c : Thread nD τ).loc main_arg3) : FVec Ideal S128x160 .f32) slices_S128x160_S128x64_0_96) transposes_S128x64_S64x128_1_0) bitsLt_bf16_f32 := by
  dsimp only [Gen.V, Gen.hostOps0]; after_results; rfl

theorem V_b1 (c : Dev nD) : (V m c main_call0_v30 : S1x128.Idx → EReal)
    = shapeCast S1x128 (m ((c : Thread nD τ).loc main_arg4) : FVec Ideal S128 .f32) shapeCasts_S128_S1x128 := by
  dsimp only [Gen.V, Gen.hostOps0]; after_results; rfl

theorem V_w2 (c : Dev nD) : (V m c main_call0_v32 : S128x64.Idx → EReal)
    = truncf (F := Ideal) (s := S128x64) .bf16 (transpose S128x64 [1, 0] (m ((c : Thread nD τ).loc main_arg5) : FVec Ideal S64x128 .f32) transposes_S64x128_S128x64_1_0) bitsLt_bf16_f32 := by
  dsimp only [Gen.V, Gen.hostOps0]; after_results; rfl

theorem V_b2 (c : Dev nD) : (V m c main_call0_v33 : S1x64.Idx → EReal)
    = shapeCast S1x64 (m ((c : Thread nD τ).loc main_arg6) : FVec Ideal S64 .f32) shapeCasts_S64_S1x64 := by
  dsimp only [Gen.V, Gen.hostOps0]; after_results; rfl

/-! ## The arrays, entry by entry -/

variable (c : Dev nD)

/-- The edge rows as the region finds them are the edge-feature argument's. -/
theorem ef_apply (e : Fin 1600000) (k : Fin 32) :
    (V m c main_call0_v18 : S1600000x32.Idx → EReal) (ix2 e k) = (m ((c : Thread nD τ).loc main_arg2) : FVec Ideal S1600000x32 .f32) (ix2 e k) := by
  rw [V_ef]; rfl

theorem src_apply (e : Fin 1600000) (k : Fin 64) :
    (V m c main_call0_v19 : S1600000x64.Idx → EReal) (ix2 e k) = srcRows m c (ix2 e k) := by
  rw [V_src]; rfl

theorem tgt_apply (e : Fin 1600000) (k : Fin 64) :
    (V m c main_call0_v20 : S1600000x64.Idx → EReal) (ix2 e k) = tgtRows m c (ix2 e k) := by
  rw [V_tgt]; rfl

/-- Entry `(k, h)` of the transposed edge band is entry `(h, k)` of the first layer's weights. -/
theorem we_apply (k : Fin 32) (h : Fin 128) :
    (V m c main_call0_v23 : S32x128.Idx → EReal) (ix2 k h) = (m ((c : Thread nD τ).loc main_arg3) : FVec Ideal S128x160 .f32) (ix2 h (colE k)) := by
  rw [V_we, truncf_apply]
  rw [transpose_apply [1, 0] _ transposes_S128x32_S32x128_1_0 (ix2 k h) (ix2 h k) (fun b => by
    match b with
    | ⟨0, _⟩ => rfl
    | ⟨1, _⟩ => rfl)]
  exact extractStridedSlice_apply ![0, 0] _ slices_S128x160_S128x32_0_0 (ix2 h k) (ix2 h (colE k)) (fun a => by
    match a with
    | ⟨0, _⟩ => show h.val = 0 + h.val; omega
    | ⟨1, _⟩ => show k.val = 0 + k.val; omega)

/-- The source band sits 32 columns in. -/
theorem ws_apply (k : Fin 64) (h : Fin 128) :
    (V m c main_call0_v26 : S64x128.Idx → EReal) (ix2 k h) = (m ((c : Thread nD τ).loc main_arg3) : FVec Ideal S128x160 .f32) (ix2 h (colS k)) := by
  rw [V_ws, truncf_apply]
  rw [transpose_apply [1, 0] _ transposes_S128x64_S64x128_1_0 (ix2 k h) (ix2 h k) (fun b => by
    match b with
    | ⟨0, _⟩ => rfl
    | ⟨1, _⟩ => rfl)]
  exact extractStridedSlice_apply ![0, 32] _ slices_S128x160_S128x64_0_32 (ix2 h k) (ix2 h (colS k)) (fun a => by
    match a with
    | ⟨0, _⟩ => show h.val = 0 + h.val; omega
    | ⟨1, _⟩ => show 32 + k.val = 32 + k.val; rfl)

/-- The target band sits 96 columns in. -/
theorem wt_apply (k : Fin 64) (h : Fin 128) :
    (V m c main_call0_v29 : S64x128.Idx → EReal) (ix2 k h) = (m ((c : Thread nD τ).loc main_arg3) : FVec Ideal S128x160 .f32) (ix2 h (colT k)) := by
  rw [V_wt, truncf_apply]
  rw [transpose_apply [1, 0] _ transposes_S128x64_S64x128_1_0 (ix2 k h) (ix2 h k) (fun b => by
    match b with
    | ⟨0, _⟩ => rfl
    | ⟨1, _⟩ => rfl)]
  exact extractStridedSlice_apply ![0, 96] _ slices_S128x160_S128x64_0_96 (ix2 h k) (ix2 h (colT k)) (fun a => by
    match a with
    | ⟨0, _⟩ => show h.val = 0 + h.val; omega
    | ⟨1, _⟩ => show 96 + k.val = 96 + k.val; rfl)

/-- The first bias as a one-row matrix. -/
theorem b1_apply (h : Fin 128) :
    (V m c main_call0_v30 : S1x128.Idx → EReal) (ix2 (0 : Fin 1) h) = (m ((c : Thread nD τ).loc main_arg4) : FVec Ideal S128 .f32) (ix1 h) := by
  rw [V_b1]
  refine (shapeCast_addUnit_apply ![128] _ shapeCasts_S128_S1x128 (ix2 (0 : Fin 1) h)).trans (congrArg _ ?_)
  funext a
  match a with
  | ⟨0, _⟩ => rfl

/-- Entry `(h, o)` of the transposed second layer is entry `(o, h)` of its weights. -/
theorem w2_apply (h : Fin 128) (o : Fin 64) :
    (V m c main_call0_v32 : S128x64.Idx → EReal) (ix2 h o) = (m ((c : Thread nD τ).loc main_arg5) : FVec Ideal S64x128 .f32) (ix2 o h) := by
  rw [V_w2, truncf_apply]
  exact transpose_apply [1, 0] _ transposes_S64x128_S128x64_1_0 (ix2 h o) (ix2 o h) (fun b => by
    match b with
    | ⟨0, _⟩ => rfl
    | ⟨1, _⟩ => rfl)

/-- The second bias as a one-row matrix. -/
theorem b2_apply (o : Fin 64) :
    (V m c main_call0_v33 : S1x64.Idx → EReal) (ix2 (0 : Fin 1) o) = (m ((c : Thread nD τ).loc main_arg6) : FVec Ideal S64 .f32) (ix1 o) := by
  rw [V_b2]
  refine (shapeCast_addUnit_apply ![64] _ shapeCasts_S64_S1x64 (ix2 (0 : Fin 1) o)).trans (congrArg _ ?_)
  funext a
  match a with
  | ⟨0, _⟩ => rfl

end Cert.EdgeMLP.Entry

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Payload.lean ====
/-
  One grid point's block of the result, entry by entry.

  At a grid point the kernel holds 8000 edges' rows — their own features, their source rows, their target rows — and
  the whole of the weights, already split by band and transposed: `we` (32 × 128), `ws` and `wt` (64 × 128), the
  first bias as one row of 128, the second layer's weights `w2` (128 × 64) and its bias as one row of 64. The body
  forms three matrix products into zero accumulators, adds them and the bias row, takes the maximum with zero,
  multiplies by `w2` and adds the second bias row. At the ideal values every change of float format is the identity
  and each product at an entry is the plain sum over the contracted index, so entry `(p, q)` of the block is

    Σ_{h<128} max (Σ_k a[p,k]·we[k,h] + Σ_k s[p,k]·ws[k,h] + Σ_k t[p,k]·wt[k,h] + b[0,h]) 0 · w2[h,q] + b2[0,q].
-/
import proofs.«127379_j14336600834812_1_alg».proof.Proof.Gen.KernelIdeal.Skeleton
import proofs.«127379_j14336600834812_1_alg».proof.Proof.LibDot
import Idealize.ShloMosaic.Lib.Pipeline.Value
import Idealize.ShloMosaic.Lib.ValueIdx

noncomputable section

namespace Cert.EdgeMLP.Block

open Cert.KernelIdeal Cert.KernelIdeal.Gen
open Idealize.ShloMosaic Idealize.ShloMosaic.ValueIdx

/-- The three printed contraction records are plain "rows by columns" products. -/
theorem dotE_eq : dot_S8000x32_S32x128_S8000x128_1_0_0_1_n_n = DotDims.plain 8000 32 128 := rfl
theorem dotN_eq : dot_S8000x64_S64x128_S8000x128_1_0_0_1_n_n = DotDims.plain 8000 64 128 := rfl
theorem dotO_eq : dot_S8000x128_S128x64_S8000x64_1_0_0_1_n_n = DotDims.plain 8000 128 64 := rfl

/-- A single row broadcast down the 8000 rows of the block reads that row at the entry's column. -/
theorem row_bcast128 (b : FVec Ideal S1x128 .f32) (hb : S1x128.Broadcasts S8000x128) (p : Fin 8000) (h : Fin 128) :
    broadcastTo S8000x128 b hb (ix2 p h) = b (ix2 (0 : Fin 1) h) :=
  broadcastTo_apply b hb (ix2 p h) (ix2 (0 : Fin 1) h) (fun a => by
    match a with
    | ⟨0, _⟩ => show (0 : ℕ) = if (1 : ℕ) = 1 then 0 else p.val; rw [if_pos rfl]
    | ⟨1, _⟩ => show h.val = if (128 : ℕ) = 1 then 0 else h.val; rw [if_neg (by decide)])

theorem row_bcast64 (b : FVec Ideal S1x64 .f32) (hb : S1x64.Broadcasts S8000x64) (p : Fin 8000) (q : Fin 64) :
    broadcastTo S8000x64 b hb (ix2 p q) = b (ix2 (0 : Fin 1) q) :=
  broadcastTo_apply b hb (ix2 p q) (ix2 (0 : Fin 1) q) (fun a => by
    match a with
    | ⟨0, _⟩ => show (0 : ℕ) = if (1 : ℕ) = 1 then 0 else p.val; rw [if_pos rfl]
    | ⟨1, _⟩ => show q.val = if (64 : ℕ) = 1 then 0 else q.val; rw [if_neg (by decide)])

variable (a : FVec Ideal S8000x32 .bf16) (s t : FVec Ideal S8000x64 .bf16)
  (we : FVec Ideal S32x128 .bf16) (ws wt : FVec Ideal S64x128 .bf16) (b : FVec Ideal S1x128 .f32)
  (w2 : FVec Ideal S128x64 .bf16) (b2 : FVec Ideal S1x64 .f32)

/-- The block's rectified first layer at row `p`, hidden unit `h`. -/
def hiddenBlk (p : Fin 8000) (h : Fin 128) : EReal :=
  max ((((∑ k : Fin 32, a (ix2 p k) * we (ix2 k h)) + ∑ k : Fin 64, s (ix2 p k) * ws (ix2 k h))
        + ∑ k : Fin 64, t (ix2 p k) * wt (ix2 k h)) + b (ix2 (0 : Fin 1) h))
    (Ideal.ofBits .f32 0x00000000#32)

/-- The stored value at entry `(p, q)` of the block. -/
theorem pay_apply (p : Fin 8000) (q : Fin 64) :
    k0_pay1 (F := Ideal) a s t we ws wt b w2 b2 (ix2 p q)
      = (∑ h : Fin 128, hiddenBlk a s t we ws wt b p h * w2 (ix2 h q)) + b2 (ix2 (0 : Fin 1) q) := by
  unfold k0_pay1
  simp only [shapeCast_self]
  rw [addf_apply, row_bcast64, dotO_eq, dotE_eq, dotN_eq]
  simp only [matmul]
  rw [Cert.GNN.matmul_plain_zero_apply]
  simp only [truncf_apply, maximumf_apply, addf_apply, broadcast_apply, row_bcast128, Cert.GNN.matmul_plain_zero_apply]
  rfl

end Cert.EdgeMLP.Block

end
-- ==== Proof.BlockAlg.lean ====
/-
  A block's entry is the network's value at the edge it stands for.

  Grid point `t` holds edges `8000·t .. 8000·t + 7999`. If the three row blocks are those rows of the three row
  arrays, and the weight and bias blocks are the transposed bands, the transposed second layer and the two bias rows
  of the arguments, then entry `(p, q)` of the block the body stores is the network at edge `8000·t + p`, output
  `q`: term by term the same sums, each factor renamed.
-/
import proofs.«127379_j14336600834812_1_alg».proof.Proof.Payload
import proofs.«127379_j14336600834812_1_alg».proof.Proof.Spec

noncomputable section

namespace Cert.EdgeMLP.Block

open Cert.KernelIdeal Cert.KernelIdeal.Gen
open Idealize.ShloMosaic Idealize.ShloMosaic.ValueIdx Cert.EdgeMLP

/-- Edge number of row `p` of grid point `t`'s block. -/
abbrev edgeOf (t : Fin 200) (p : Fin 8000) : Fin 1600000 := ⟨t.val * 8000 + p.val, by have := t.isLt; have := p.isLt; omega⟩

theorem block_entry
    (ef : FVec Ideal ⟨2, ![1600000, 32]⟩ .f32) (src tgt : FVec Ideal ⟨2, ![1600000, 64]⟩ .f32)
    (W1 : FVec Ideal ⟨2, ![128, 160]⟩ .f32) (b1 : FVec Ideal ⟨1, ![128]⟩ .f32)
    (W2 : FVec Ideal ⟨2, ![64, 128]⟩ .f32) (b2 : FVec Ideal ⟨1, ![64]⟩ .f32)
    (a : FVec Ideal S8000x32 .bf16) (s t' : FVec Ideal S8000x64 .bf16)
    (we : FVec Ideal S32x128 .bf16) (ws wt : FVec Ideal S64x128 .bf16) (b : FVec Ideal S1x128 .f32)
    (w2 : FVec Ideal S128x64 .bf16) (bb : FVec Ideal S1x64 .f32)
    (t : Fin 200)
    (ha : ∀ (p : Fin 8000) (k : Fin 32), a (ix2 p k) = ef (ix2 (edgeOf t p) k))
    (hs : ∀ (p : Fin 8000) (k : Fin 64), s (ix2 p k) = src (ix2 (edgeOf t p) k))
    (ht : ∀ (p : Fin 8000) (k : Fin 64), t' (ix2 p k) = tgt (ix2 (edgeOf t p) k))
    (hwe : ∀ (k : Fin 32) (h : Fin 128), we (ix2 k h) = W1 (ix2 h (colE k)))
    (hws : ∀ (k : Fin 64) (h : Fin 128), ws (ix2 k h) = W1 (ix2 h (colS k)))
    (hwt : ∀ (k : Fin 64) (h : Fin 128), wt (ix2 k h) = W1 (ix2 h (colT k)))
    (hb : ∀ h : Fin 128, b (ix2 (0 : Fin 1) h) = b1 (ix1 h))
    (hw2 : ∀ (h : Fin 128) (o : Fin 64), w2 (ix2 h o) = W2 (ix2 o h))
    (hbb : ∀ o : Fin 64, bb (ix2 (0 : Fin 1) o) = b2 (ix1 o))
    (p : Fin 8000) (q : Fin 64) :
    k0_pay1 (F := Ideal) a s t' we ws wt b w2 bb (ix2 p q) = outAt ef src tgt W1 b1 W2 b2 (edgeOf t p) q := by
  rw [pay_apply]
  unfold outAt
  rw [hbb]
  refine congrArg (· + b2 (ix1 q)) (Finset.sum_congr rfl fun h _ => ?_)
  rw [hw2]
  refine congrArg (· * W2 (ix2 q h)) ?_
  unfold hiddenBlk hidden
  rw [hb]
  simp only [ha, hs, ht, hwe, hws, hwt]

end Cert.EdgeMLP.Block

end
-- ==== Proof.KernelValue.lean ====
/-
  The kernel's result array is the edge network of its arguments.

  Grid point `t` fetches rows `8000·t .. 8000·t + 7999` of the three row arrays and the whole of the six weight and
  bias arrays, and writes back rows `8000·t .. 8000·t + 7999` of the result. What it writes back is, entry by entry,
  the network at those edges (`Cert.EdgeMLP.Block.block_entry`, the blocks read through the arrays the region
  finds). The 200 blocks tile the 1,600,000 rows — row `r` lies in block `r / 8000` —, so after the run the whole
  array is the network.
-/
import proofs.«127379_j14336600834812_1_alg».proof.Proof.Gen.KernelIdeal.Value
import proofs.«127379_j14336600834812_1_alg».proof.Proof.Entry
import proofs.«127379_j14336600834812_1_alg».proof.Proof.BlockAlg

set_option maxRecDepth 16384

noncomputable section

namespace Cert.EdgeMLP.Kernel

open Cert.KernelIdeal Cert.KernelIdeal.Gen
open Idealize.ShloMosaic Idealize.ShloMosaic.TcCoe Idealize.ShloMosaic.ValueIdx Idealize.SL.Sem
open Idealize.ShloMosaic.Pipeline (Dat)
open Cert.EdgeMLP Cert.EdgeMLP.Entry Cert.EdgeMLP.Block

variable (m : (ℓ : Loc nD τ sig) → Buf (Elt Ideal) ℓ) (ρ : Dev nD → PrngReg)

/-- The network of the argument arrays, the node rows gathered as the program gathers them. -/
def net (c : Dev nD) : FVec Ideal S1600000x64 .f32 :=
  out (m ((c : Thread nD τ).loc main_arg2) : FVec Ideal S1600000x32 .f32) (srcRows m c) (tgtRows m c)
    (m ((c : Thread nD τ).loc main_arg3) : FVec Ideal S128x160 .f32) (m ((c : Thread nD τ).loc main_arg4) : FVec Ideal S128 .f32)
    (m ((c : Thread nD τ).loc main_arg5) : FVec Ideal S64x128 .f32) (m ((c : Thread nD τ).loc main_arg6) : FVec Ideal S64 .f32)

theorem origin : (![0, 0] : Fin 2 → Nat) = fun _ => 0 := funext fun a => by fin_cases a <;> rfl

/-- The printed index maps over the grid: the row windows and the result window are at block `(t, 0)`, the weight and
    bias windows at block `(0, 0)`. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem point_lt (t : Fin cfg0.N) : t.val < 200 := N_0 ▸ t.isLt

/-- The grid point as a number below 200. -/
abbrev pt (t : Fin cfg0.N) : Fin 200 := ⟨t.val, point_lt t⟩

/-! ## The blocks, read through the arrays -/

section Blocks
variable (c : Dev nD) (t : Fin cfg0.N)

theorem blk_ef (p : Fin 8000) (k : Fin 32) :
    (iblk m c 0 t : S8000x32.Idx → EReal) (ix2 p k) = (m ((c : Thread nD τ).loc main_arg2) : FVec Ideal S1600000x32 .f32) (ix2 (edgeOf (pt t) p) k) := by
  rw [← ef_apply m c]
  show (V m c main_call0_v18 : S1600000x32.Idx → EReal) (((cfg0.win 0).blk t).view.emb (ix2 p k)) = _
  refine congrArg _ (funext fun a => Fin.ext ?_)
  obtain ⟨⟨e0, e1⟩, -⟩ := index_facts t
  match a with
  | ⟨0, _⟩ => show win0_0.index t (0 : Fin 2) * 8000 + 1 * p.val = t.val * 8000 + p.val; omega
  | ⟨1, _⟩ => show win0_0.index t (1 : Fin 2) * 32 + 1 * k.val = k.val; omega

theorem blk_src (p : Fin 8000) (k : Fin 64) :
    (iblk m c 1 t : S8000x64.Idx → EReal) (ix2 p k) = srcRows m c (ix2 (edgeOf (pt t) p) k) := by
  rw [← src_apply m c]
  show (V m c main_call0_v19 : S1600000x64.Idx → EReal) (((cfg0.win 1).blk t).view.emb (ix2 p k)) = _
  refine congrArg _ (funext fun a => Fin.ext ?_)
  obtain ⟨-, ⟨e0, e1⟩, -⟩ := index_facts t
  match a with
  | ⟨0, _⟩ => show win0_1.index t (0 : Fin 2) * 8000 + 1 * p.val = t.val * 8000 + p.val; omega
  | ⟨1, _⟩ => show win0_1.index t (1 : Fin 2) * 64 + 1 * k.val = k.val; omega

theorem blk_tgt (p : Fin 8000) (k : Fin 64) :
    (iblk m c 2 t : S8000x64.Idx → EReal) (ix2 p k) = tgtRows m c (ix2 (edgeOf (pt t) p) k) := by
  rw [← tgt_apply m c]
  show (V m c main_call0_v20 : S1600000x64.Idx → EReal) (((cfg0.win 2).blk t).view.emb (ix2 p k)) = _
  refine congrArg _ (funext fun a => Fin.ext ?_)
  obtain ⟨-, -, ⟨e0, e1⟩, -⟩ := index_facts t
  match a with
  | ⟨0, _⟩ => show win0_2.index t (0 : Fin 2) * 8000 + 1 * p.val = t.val * 8000 + p.val; omega
  | ⟨1, _⟩ => show win0_2.index t (1 : Fin 2) * 64 + 1 * k.val = k.val; omega

theorem blk_we (k : Fin 32) (h : Fin 128) :
    (iblk m c 3 t : S32x128.Idx → EReal) (ix2 k h) = (m ((c : Thread nD τ).loc main_arg3) : FVec Ideal S128x160 .f32) (ix2 h (colE k)) := by
  rw [← we_apply m c]
  show (V m c main_call0_v23 : S32x128.Idx → EReal) (((cfg0.win 3).blk t).view.emb (ix2 k h)) = _
  refine congrArg _ (funext fun a => Fin.ext ?_)
  obtain ⟨-, -, -, ⟨e0, e1⟩, -⟩ := index_facts t
  match a with
  | ⟨0, _⟩ => show win0_3.index t (0 : Fin 2) * 32 + 1 * k.val = k.val; omega
  | ⟨1, _⟩ => show win0_3.index t (1 : Fin 2) * 128 + 1 * h.val = h.val; omega

theorem blk_ws (k : Fin 64) (h : Fin 128) :
    (iblk m c 4 t : S64x128.Idx → EReal) (ix2 k h) = (m ((c : Thread nD τ).loc main_arg3) : FVec Ideal S128x160 .f32) (ix2 h (colS k)) := by
  rw [← ws_apply m c]
  show (V m c main_call0_v26 : S64x128.Idx → EReal) (((cfg0.win 4).blk t).view.emb (ix2 k h)) = _
  refine congrArg _ (funext fun a => Fin.ext ?_)
  obtain ⟨-, -, -, -, ⟨e0, e1⟩, -⟩ := index_facts t
  match a with
  | ⟨0, _⟩ => show win0_4.index t (0 : Fin 2) * 64 + 1 * k.val = k.val; omega
  | ⟨1, _⟩ => show win0_4.index t (1 : Fin 2) * 128 + 1 * h.val = h.val; omega

theorem blk_wt (k : Fin 64) (h : Fin 128) :
    (iblk m c 5 t : S64x128.Idx → EReal) (ix2 k h) = (m ((c : Thread nD τ).loc main_arg3) : FVec Ideal S128x160 .f32) (ix2 h (colT k)) := by
  rw [← wt_apply m c]
  show (V m c main_call0_v29 : S64x128.Idx → EReal) (((cfg0.win 5).blk t).view.emb (ix2 k h)) = _
  refine congrArg _ (funext fun a => Fin.ext ?_)
  obtain ⟨-, -, -, -, -, ⟨e0, e1⟩, -⟩ := index_facts t
  match a with
  | ⟨0, _⟩ => show win0_5.index t (0 : Fin 2) * 64 + 1 * k.val = k.val; omega
  | ⟨1, _⟩ => show win0_5.index t (1 : Fin 2) * 128 + 1 * h.val = h.val; omega

theorem blk_b1 (h : Fin 128) :
    (iblk m c 6 t : S1x128.Idx → EReal) (ix2 (0 : Fin 1) h) = (m ((c : Thread nD τ).loc main_arg4) : FVec Ideal S128 .f32) (ix1 h) := by
  rw [← b1_apply m c]
  show (V m c main_call0_v30 : S1x128.Idx → EReal) (((cfg0.win 6).blk t).view.emb (ix2 (0 : Fin 1) h)) = _
  refine congrArg _ (funext fun a => Fin.ext ?_)
  obtain ⟨-, -, -, -, -, -, ⟨e0, e1⟩, -⟩ := index_facts t
  match a with
  | ⟨0, _⟩ => show win0_6.index t (0 : Fin 2) * 1 + 1 * 0 = 0; omega
  | ⟨1, _⟩ => show win0_6.index t (1 : Fin 2) * 128 + 1 * h.val = h.val; omega

theorem blk_w2 (h : Fin 128) (o : Fin 64) :
    (iblk m c 7 t : S128x64.Idx → EReal) (ix2 h o) = (m ((c : Thread nD τ).loc main_arg5) : FVec Ideal S64x128 .f32) (ix2 o h) := by
  rw [← w2_apply m c]
  show (V m c main_call0_v32 : S128x64.Idx → EReal) (((cfg0.win 7).blk t).view.emb (ix2 h o)) = _
  refine congrArg _ (funext fun a => Fin.ext ?_)
  obtain ⟨-, -, -, -, -, -, -, ⟨e0, e1⟩, -⟩ := index_facts t
  match a with
  | ⟨0, _⟩ => show win0_7.index t (0 : Fin 2) * 128 + 1 * h.val = h.val; omega
  | ⟨1, _⟩ => show win0_7.index t (1 : Fin 2) * 64 + 1 * o.val = o.val; omega

theorem blk_b2 (o : Fin 64) :
    (iblk m c 8 t : S1x64.Idx → EReal) (ix2 (0 : Fin 1) o) = (m ((c : Thread nD τ).loc main_arg6) : FVec Ideal S64 .f32) (ix1 o) := by
  rw [← b2_apply m c]
  show (V m c main_call0_v33 : S1x64.Idx → EReal) (((cfg0.win 8).blk t).view.emb (ix2 (0 : Fin 1) o)) = _
  refine congrArg _ (funext fun a => Fin.ext ?_)
  obtain ⟨-, -, -, -, -, -, -, -, ⟨e0, e1⟩, -⟩ := index_facts t
  match a with
  | ⟨0, _⟩ => show win0_8.index t (0 : Fin 2) * 1 + 1 * 0 = 0; omega
  | ⟨1, _⟩ => show win0_8.index t (1 : Fin 2) * 64 + 1 * o.val = o.val; omega

end Blocks

/-! ## What a point writes back, and the array after the run -/

/-- What point `t` writes back is block `t` of the network. -/
theorem flushed_eq (c : Dev nD) (t : Fin cfg0.N) :
    (dats m 0 c).flushed 9 t = ((cfg0.win 9).blk t).view.read (Elt Ideal) (net m c) := by
  rw [Cert.KernelIdeal.Value.flushed9]
  unfold out0_9
  rw [View.canon_unit_zero origin]
  simp only [View.ld_unit_zero (S := S8000x32) origin, View.ld_unit_zero (S := S8000x64) origin, View.ld_unit_zero (S := S32x128) origin,
    View.ld_unit_zero (S := S64x128) origin, View.ld_unit_zero (S := S1x128) origin, View.ld_unit_zero (S := S128x64) origin,
    View.ld_unit_zero (S := S1x64) origin]
  funext j
  have hp : (j 0).val < 8000 := (j 0).isLt
  have hq : (j 1).val < 64 := (j 1).isLt
  obtain ⟨-, -, -, -, -, -, -, -, -, ⟨e0, e1⟩⟩ := index_facts t
  have hemb : ((cfg0.win 9).blk t).view.emb j = ix2 (edgeOf (pt t) ⟨(j 0).val, hp⟩) (⟨(j 1).val, hq⟩ : Fin 64) := by
    funext a; apply Fin.ext
    match a with
    | ⟨0, _⟩ => show win0_9.index t (0 : Fin 2) * 8000 + 1 * (j 0).val = t.val * 8000 + (j 0).val; omega
    | ⟨1, _⟩ => show win0_9.index t (1 : Fin 2) * 64 + 1 * (j 1).val = (j 1).val; omega
  have hj : (win0 9).xinj (grid0.coords t) j = ix2 (⟨(j 0).val, hp⟩ : Fin 8000) (⟨(j 1).val, hq⟩ : Fin 64) := funext fun a => by
    match a with
    | ⟨0, _⟩ => rfl
    | ⟨1, _⟩ => rfl
  show k0_pay1 (F := Ideal) (iblk m c 0 t) (iblk m c 1 t) (iblk m c 2 t) (iblk m c 3 t) (iblk m c 4 t) (iblk m c 5 t) (iblk m c 6 t) (iblk m c 7 t) (iblk m c 8 t)
      ((win0 9).xinj (grid0.coords t) j) = net m c (((cfg0.win 9).blk t).view.emb j)
  rw [hj, hemb]
  exact block_entry (m ((c : Thread nD τ).loc main_arg2) : FVec Ideal S1600000x32 .f32) (srcRows m c) (tgtRows m c)
    (m ((c : Thread nD τ).loc main_arg3) : FVec Ideal S128x160 .f32) (m ((c : Thread nD τ).loc main_arg4) : FVec Ideal S128 .f32)
    (m ((c : Thread nD τ).loc main_arg5) : FVec Ideal S64x128 .f32) (m ((c : Thread nD τ).loc main_arg6) : FVec Ideal S64 .f32)
    (iblk m c 0 t) (iblk m c 1 t) (iblk m c 2 t) (iblk m c 3 t) (iblk m c 4 t) (iblk m c 5 t) (iblk m c 6 t) (iblk m c 7 t) (iblk m c 8 t) (pt t)
    (blk_ef m c t) (blk_src m c t) (blk_tgt m c t) (blk_we m c t) (blk_ws m c t) (blk_wt m c t) (blk_b1 m c t) (blk_w2 m c t) (blk_b2 m c t)
    ⟨(j 0).val, hp⟩ ⟨(j 1).val, hq⟩

/-- An index of the result array is in point `t`'s block iff each coordinate is in the block's range on its axis. -/
theorem mem_blk (t : Fin cfg0.N) (i : S1600000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v0).slice (win0_9.rect t)).set ↔ _
  rw [View.set_slice_whole, Rect.mem_set_unit]
  exact Iff.rfl

/-- Every row lies in the block of the point `row / 8000`. -/
theorem cover (i : S1600000x64.Idx) : ∃ t : Fin cfg0.N, (cfg0.win 9).flush t = true ∧ i ∈ ((cfg0.win 9).blk t).view.set := by
  have hi0 : (i 0).val < 1600000 := (i 0).isLt
  have hi1 : (i 1).val < 64 := (i 1).isLt
  have hN : cfg0.N = 200 := N_0
  let t : Fin cfg0.N := ⟨(i 0).val / 8000, by rw [hN]; omega⟩
  obtain ⟨-, -, -, -, -, -, -, -, -, ⟨e0, e1⟩⟩ := index_facts t
  have ht : t.val = (i 0).val / 8000 := rfl
  refine ⟨t, flush0_9 t, ?_⟩
  rw [mem_blk]
  intro a
  match a with
  | ⟨0, _⟩ => show win0_9.index t (0 : Fin 2) * 8000 ≤ (i 0).val ∧ (i 0).val < win0_9.index t (0 : Fin 2) * 8000 + 8000; omega
  | ⟨1, _⟩ => show win0_9.index t (1 : Fin 2) * 64 ≤ (i 1).val ∧ (i 1).val < win0_9.index t (1 : Fin 2) * 64 + 64; omega

/-- The result array after the run is the network. -/
theorem final (c : Dev nD) : (dats m 0 c).arrAt 9 cfg0.N = net m c :=
  (dats m 0 c).arrAt_eq_of_cover 9 (net m c) (fun t _ => flushed_eq m c t) cover

/-- The kernel program's run: it terminates with the result array at the network of the arguments, the arguments
    unchanged. -/
theorem run : θ_run defs (onTc (τ := τ) (main (F := Ideal))) ⟨m, fun _ => 0, ρ⟩ fun r => ∀ c : Dev nD,
      r.2.mem ((c : Thread nD τ).loc main_v0) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.EdgeMLP.Kernel

end
-- ==== Proof.RefValue.lean ====
/-
  The reference computes the edge network (`Cert.EdgeMLP.out`).

  The reference lays each edge's three rows end to end into one row of 160 entries and multiplies by the transposed
  first-layer weights: entry `(e, h)` of that product is the sum over the 160 columns of `row e k · W1 h k`. A column
  in the first band reads the edge's own features, one in the second band the source node's row, one in the third the
  target node's row (`row_E`, `row_S`, `row_T`), so the sum over 160 columns is the three bands' sums
  (`Cert.EdgeMLP.sum_bands`). The bias, the rectifier and the second layer follow entry by entry. The two gathered
  node tables stay as they are: whatever rows the index arrays pick, both sides pick the same.
-/
import proofs.«127379_j14336600834812_1_alg».proof.Proof.Gen.ReferenceIdeal.Read
import proofs.«127379_j14336600834812_1_alg».proof.Proof.Spec
import Idealize.ShloMosaic.Lib.Pipeline.Value

noncomputable section

namespace Cert.EdgeMLP.Ref

open Cert.ReferenceIdeal Cert.ReferenceIdeal.Gen Cert.ReferenceIdeal.Read
open Idealize.ShloMosaic Idealize.ShloMosaic.ValueIdx Cert.EdgeMLP

/-! ## The concatenated row, band by band -/

section Row

variable (x : S1600000x32.Idx → EReal) (s t : S1600000x64.Idx → EReal)
  (hc : Shape.Concatenates [S1600000x32, S1600000x64, S1600000x64] S1600000x160 1)

/-- A column of the first band reads the edge's own features. -/
theorem row_E (e : Fin 1600000) (k : Fin 32) :
    concatenate S1600000x160 1 [⟨S1600000x32, x⟩, ⟨S1600000x64, s⟩, ⟨S1600000x64, t⟩] hc (ix2 e (colE k)) = x (ix2 e k) :=
  concatenate_apply_piece (1 : Fin S1600000x160.rank) [⟨S1600000x32, x⟩, ⟨S1600000x64, s⟩, ⟨S1600000x64, t⟩] hc (ix2 e (colE k)) 0 (by show (0 : ℕ) < 3; omega) S1600000x32 x rfl rfl 0 rfl (ix2 e k)
    (fun b hb => by
      match b with
      | ⟨0, _⟩ => rfl
      | ⟨1, _⟩ => exact absurd rfl hb)
    (Nat.zero_add _)

/-- A column of the second band reads the source node's row. -/
theorem row_S (e : Fin 1600000) (k : Fin 64) :
    concatenate S1600000x160 1 [⟨S1600000x32, x⟩, ⟨S1600000x64, s⟩, ⟨S1600000x64, t⟩] hc (ix2 e (colS k)) = s (ix2 e k) :=
  concatenate_apply_piece (1 : Fin S1600000x160.rank) [⟨S1600000x32, x⟩, ⟨S1600000x64, s⟩, ⟨S1600000x64, t⟩] hc (ix2 e (colS k)) 1 (by show (1 : ℕ) < 3; omega) S1600000x64 s rfl rfl 32 rfl (ix2 e k)
    (fun b hb => by
      match b with
      | ⟨0, _⟩ => rfl
      | ⟨1, _⟩ => exact absurd rfl hb)
    rfl

/-- A column of the third band reads the target node's row. -/
theorem row_T (e : Fin 1600000) (k : Fin 64) :
    concatenate S1600000x160 1 [⟨S1600000x32, x⟩, ⟨S1600000x64, s⟩, ⟨S1600000x64, t⟩] hc (ix2 e (colT k)) = t (ix2 e k) :=
  concatenate_apply_piece (1 : Fin S1600000x160.rank) [⟨S1600000x32, x⟩, ⟨S1600000x64, s⟩, ⟨S1600000x64, t⟩] hc (ix2 e (colT k)) 2 (by show (2 : ℕ) < 3; omega) S1600000x64 t rfl rfl 96 rfl (ix2 e k)
    (fun b hb => by
      match b with
      | ⟨0, _⟩ => rfl
      | ⟨1, _⟩ => exact absurd rfl hb)
    rfl

end Row

/-! ## The two layers -/

variable (x0 : (⟨S2x1600000, .i32⟩ : BufTy).Contents (Elt Ideal)) (x1 : (⟨S50000x64, .f32⟩ : BufTy).Contents (Elt Ideal))
  (x2 : (⟨S1600000x32, .f32⟩ : BufTy).Contents (Elt Ideal)) (x3 : (⟨S128x160, .f32⟩ : BufTy).Contents (Elt Ideal))
  (x4 : (⟨S128, .f32⟩ : BufTy).Contents (Elt Ideal)) (x5 : (⟨S64x128, .f32⟩ : BufTy).Contents (Elt Ideal))
  (x6 : (⟨S64, .f32⟩ : BufTy).Contents (Elt Ideal))

/-- The reference's rectified first layer at `(e, h)` is the network's: the product's sum over 160 columns split into
    the three bands, each band's factor read through the concatenation and the transposed weights. -/
theorem hidden_eq (e : Fin 1600000) (h : Fin 128) :
    val_main_v24 (F := Ideal) x0 x1 x2 x3 x4 (ix2 e h)
      = hidden x2 (val_main_v8 (F := Ideal) x0 x1) (val_main_v17 (F := Ideal) x0 x1) x3 x4 e h := by
  have hl : ∀ k : Fin 160, lidx_main_v20 (ix2 e h) k = ix2 e k := fun k => funext fun a => by
    match a with
    | ⟨0, _⟩ => rfl
    | ⟨1, _⟩ => rfl
  have hr : ∀ k : Fin 160, idx_main_v19 (ridx_main_v20 (ix2 e h) k) = ix2 h k := fun k => funext fun a => by
    match a with
    | ⟨0, _⟩ => rfl
    | ⟨1, _⟩ => rfl
  have hb : idx_main_v21 (idx_main_v22 (ix2 e h)) = ix1 h := funext fun a => by
    match a with
    | ⟨0, _⟩ => rfl
  rw [val_main_v24_apply, val_main_v23_apply, val_main_v20_apply, val_main_v22_apply, val_main_v21_apply,
    val_main_call0_v0_apply, val_main_call0_cst_apply, sum_bands, hb]
  have hE : ∀ k : Fin 32, val_main_v18 (F := Ideal) x0 x1 x2 (lidx_main_v20 (ix2 e h) (colE k)) * val_main_v19 (F := Ideal) x3 (ridx_main_v20 (ix2 e h) (colE k))
      = x2 (ix2 e k) * x3 (ix2 h (colE k)) := fun k => by
    rw [val_main_v19_apply, hl, hr]; unfold val_main_v18; rw [row_E]
  have hS : ∀ k : Fin 64, val_main_v18 (F := Ideal) x0 x1 x2 (lidx_main_v20 (ix2 e h) (colS k)) * val_main_v19 (F := Ideal) x3 (ridx_main_v20 (ix2 e h) (colS k))
      = val_main_v8 (F := Ideal) x0 x1 (ix2 e k) * x3 (ix2 h (colS k)) := fun k => by
    rw [val_main_v19_apply, hl, hr]; unfold val_main_v18; rw [row_S]
  have hT : ∀ k : Fin 64, val_main_v18 (F := Ideal) x0 x1 x2 (lidx_main_v20 (ix2 e h) (colT k)) * val_main_v19 (F := Ideal) x3 (ridx_main_v20 (ix2 e h) (colT k))
      = val_main_v17 (F := Ideal) x0 x1 (ix2 e k) * x3 (ix2 h (colT k)) := fun k => by
    rw [val_main_v19_apply, hl, hr]; unfold val_main_v18; rw [row_T]
  rw [Finset.sum_congr rfl (fun k _ => hE k), Finset.sum_congr rfl (fun k _ => hS k), Finset.sum_congr rfl (fun k _ => hT k)]
  rfl

/-- The reference's result array is the network's. -/
theorem result_eq :
    val_main_v29 (F := Ideal) x0 x1 x2 x3 x4 x5 x6
      = out x2 (val_main_v8 (F := Ideal) x0 x1) (val_main_v17 (F := Ideal) x0 x1) x3 x4 x5 x6 := by
  funext i
  obtain ⟨e, o, rfl⟩ : ∃ (e : Fin 1600000) (o : Fin 64), i = ix2 e o := ⟨i 0, i 1, eq_ix2 i⟩
  have hl : ∀ h : Fin 128, lidx_main_v26 (ix2 e o) h = ix2 e h := fun h => funext fun a => by
    match a with
    | ⟨0, _⟩ => rfl
    | ⟨1, _⟩ => rfl
  have hr : ∀ h : Fin 128, idx_main_v25 (ridx_main_v26 (ix2 e o) h) = ix2 o h := fun h => funext fun a => by
    match a with
    | ⟨0, _⟩ => rfl
    | ⟨1, _⟩ => rfl
  have hb : idx_main_v27 (idx_main_v28 (ix2 e o)) = ix1 o := funext fun a => by
    match a with
    | ⟨0, _⟩ => rfl
  rw [val_main_v29_apply, val_main_v26_apply, val_main_v28_apply, val_main_v27_apply, hb]
  have hH : ∀ h : Fin 128, val_main_v24 (F := Ideal) x0 x1 x2 x3 x4 (lidx_main_v26 (ix2 e o) h) * val_main_v25 (F := Ideal) x5 (ridx_main_v26 (ix2 e o) h)
      = hidden x2 (val_main_v8 (F := Ideal) x0 x1) (val_main_v17 (F := Ideal) x0 x1) x3 x4 e h * x5 (ix2 o h) := fun h => by
    rw [val_main_v25_apply, hl, hr, hidden_eq]
  rw [Finset.sum_congr rfl (fun h _ => hH h)]
  rfl

end Cert.EdgeMLP.Ref

end
-- ==== Proof.lean ====
/-
  The edge network kernel computes what its reference computes.

  For each of 1,600,000 edges the reference gathers the source and target node rows, lays them beside the edge's own
  features into one row of 160 entries, and applies `relu(row · W1ᵀ + b1) · W2ᵀ + b2`. The kernel gathers the same
  rows, but keeps the three pieces apart: it cuts `W1` into the three column bands that meet them, forms the three
  products `ef · W1eᵀ + src · W1sᵀ + tgt · W1tᵀ` block by block over 8000 edges at a time, and goes on as the reference
  does. At the ideal values the changes of float format are the identity and a matrix product at an entry is the plain
  sum over the contracted index, so the one difference left is a sum over 160 columns against the sum of the three
  bands' sums — equal in any commutative monoid, so on the extended reals with nothing asked of the inputs
  (Proof/Spec.lean). The kernel's side is Proof/KernelValue.lean (what a grid point writes back, and the 200 blocks
  tiling the result), the reference's Proof/RefValue.lean; the gathered rows are one and the same term on both sides
  and are never opened. The three frames are the generated ones; nothing was rewritten when the kernel was
  idealized, so that claim is trivial.
-/
import proofs.«127379_j14336600834812_1_alg».proof.Defs
import proofs.«127379_j14336600834812_1_alg».proof.Proof.Gen.Kernel
import proofs.«127379_j14336600834812_1_alg».proof.Proof.Gen.Kernel.Skeleton
import proofs.«127379_j14336600834812_1_alg».proof.Proof.Gen.Kernel.Launch
import proofs.«127379_j14336600834812_1_alg».proof.Proof.Gen.Kernel.Points
import proofs.«127379_j14336600834812_1_alg».proof.Proof.Gen.Kernel.Frame
import proofs.«127379_j14336600834812_1_alg».proof.Proof.Gen.KernelIdeal
import proofs.«127379_j14336600834812_1_alg».proof.Proof.Gen.KernelIdeal.Skeleton
import proofs.«127379_j14336600834812_1_alg».proof.Proof.Gen.KernelIdeal.Launch
import proofs.«127379_j14336600834812_1_alg».proof.Proof.Gen.KernelIdeal.Points
import proofs.«127379_j14336600834812_1_alg».proof.Proof.Gen.KernelIdeal.Frame
import proofs.«127379_j14336600834812_1_alg».proof.Proof.Gen.ReferenceIdeal
import proofs.«127379_j14336600834812_1_alg».proof.Proof.Gen.Pre_finite_inputs
import proofs.«127379_j14336600834812_1_alg».proof.Proof.Gen.KernelIdeal.Value
import proofs.«127379_j14336600834812_1_alg».proof.Proof.Gen.ReferenceIdeal.Run
import proofs.«127379_j14336600834812_1_alg».proof.Proof.Gen.ReferenceIdeal.Read
import proofs.«127379_j14336600834812_1_alg».proof.Proof.KernelValue
import proofs.«127379_j14336600834812_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the edge network of the arguments; the arguments agree, and the rows the
    two programs gather out of the node table are the same function of the index array and the table. -/
theorem algebraic : Cert.algebraic_KernelIdeal_ReferenceIdeal := by
  intro m ρ m' ρ' _ hagree
  refine ⟨fun c => Cert.EdgeMLP.Kernel.net m c, Cert.EdgeMLP.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.EdgeMLP.Ref.result_eq]
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
